-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S_ : Shape := ⟨0, ![]⟩
abbrev S8192x128 : Shape := ⟨2, ![8192, 128]⟩
abbrev S1 : Shape := ⟨1, ![1]⟩
abbrev S2 : Shape := ⟨1, ![2]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S16384x8192 : Shape := ⟨2, ![16384, 8192]⟩
abbrev S16384x128 : Shape := ⟨2, ![16384, 128]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩
abbrev S32768x64 : Shape := ⟨2, ![32768, 64]⟩

abbrev nBuf : Space → Nat
  | .hbm => 49
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S4096x64, .bf16⟩
  | .hbm, ⟨5, _⟩ => ⟨S_, .bf16⟩
  | .hbm, ⟨6, _⟩ => ⟨S8192x128, .bf16⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8192x128, .bf16⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8192x128, .bf16⟩
  | .hbm, ⟨19, _⟩ => ⟨S128, .f32⟩
  | .hbm, ⟨20, _⟩ => ⟨S1x128, .f32⟩
  | .hbm, ⟨21, _⟩ => ⟨S128, .i32⟩
  | .hbm, ⟨22, _⟩ => ⟨S_, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S1x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S128x128, .f32⟩
  | .hbm, ⟨46, _⟩ => ⟨S16384x8192, .f32⟩
  | .hbm, ⟨47, _⟩ => ⟨S16384x128, .f32⟩
  | .hbm, ⟨48, _⟩ => ⟨S32768x64, .f32⟩
  | .local _ .vmem, ⟨0, _⟩ => ⟨S512x8192, .f32⟩
  | .local _ .vmem, ⟨1, _⟩ => ⟨S512x8192, .f32⟩
  | .local _ .vmem, ⟨2, _⟩ => ⟨S8192x128, .bf16⟩
  | .local _ .vmem, ⟨3, _⟩ => ⟨S1x128, .f32⟩
  | .local _ .vmem, ⟨4, _⟩ => ⟨S128x128, .f32⟩
  | .local _ .vmem, ⟨5, _⟩ => ⟨S512x128, .f32⟩
  | .local _ .vmem, ⟨6, _⟩ => ⟨S512x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x4096_S4096x64_1_0 : S64x4096.Transposes [1, 0] S4096x64
  bitsLt_bf16_f32 : FTy.bits .bf16 < FTy.bits .f32
  bcast_S_S8192x128 : S_.BroadcastsInDim S8192x128 (![] : Fin 0 → Fin S8192x128.rank)
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  shapeCasts_S128_S1x128 : S128.ShapeCasts S1x128
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S32768x4096_S16384x8192 : S32768x4096.ShapeCasts S16384x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x128_S512x128_0_0 : ∀ a, (![0, 0] : Fin 2 → Nat) a + S512x128.size a ≤ S512x128.size a
  h_S512x128 : 0 < S512x128.numel
  shapeCasts_S16384x128_S32768x64 : S16384x128.ShapeCasts S32768x64
  scatter_S8192x128_S2_S4096x64_01_n_01_0_wf : ScatterDims.WF S8192x128 S2 S4096x64 [0, 1] [] [0, 1] 0
  dot_S512x8192_S8192x128_S512x128_1_0_0_1_n_n_wf : DotDims.WF S512x8192 S8192x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)

variable [Facts₀]

def scatter_S8192x128_S2_S4096x64_01_n_01_0 : ScatterDims S8192x128 S2 S4096x64 where
  updateWindowDims := [0, 1]
  insertedWindowDims := []
  scatterDimsToOperandDims := [0, 1]
  indexVectorDim := 0
  wf := scatter_S8192x128_S2_S4096x64_01_n_01_0_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v21) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Softmax.lean ====
import Mathlib.Analysis.SpecialFunctions.Exp
import Mathlib.Data.EReal.Operations
import Mathlib.Data.Finset.Fold
import Mathlib.Algebra.BigOperators.Intervals
import Idealize.ShloMosaic.PureOps.Ideal
import Idealize.ShloMosaic.Lib.ValueIdx

/-!
# Softmax of real logits, and the packing of two tokens into one row

The router computes, for every token `t`, the logits `l t e = ∑ k, x t k * w e k + b e` over the 64 experts
and their softmax `exp (l t e) / ∑ e', exp (l t e')`. Real arrays are indexed by natural numbers here, so
that the arithmetic of the packed layout (row `r` of the packed arrays holds tokens `2 r` and `2 r + 1`,
lane `q` of a packed row belongs to token `2 r + q / 64` and expert `q % 64`) is plain arithmetic on `ℕ`.

Three facts carry the whole comparison:

* `exp_shift_div`: subtracting one real constant from every logit leaves the quotient unchanged, whatever
  the constant — a row's own maximum, or the maximum over the two tokens sharing a packed row;
* `fold_max_coe`: the maximum of finitely many reals, folded on the extended reals from `-∞`, is a real;
* `sum_half`: a sum over a doubled axis whose terms vanish off one half is the sum over that half — which is
  what a product with a block-diagonal matrix computes.
-/

noncomputable section

namespace Cert.Router

open Idealize.ShloMosaic

variable {ι : Type}

/-! ## Real algebra -/

/-- A common shift of the logits cancels in the quotient. -/
theorem exp_shift_div (s : Finset ι) (l : ι → ℝ) (c : ℝ) (i : ι) :
    Real.exp (l i - c) / ∑ k ∈ s, Real.exp (l k - c) = Real.exp (l i) / ∑ k ∈ s, Real.exp (l k) := by
  have h : ∀ k, Real.exp (l k - c) = Real.exp (l k) * Real.exp (-c) := fun k => by
    rw [sub_eq_add_neg, Real.exp_add]
  simp only [h, ← Finset.sum_mul]
  exact mul_div_mul_right _ _ (Real.exp_ne_zero _)

/-- A sum over `[0, n + n)` of terms that vanish unless the index lies in half `s` is the sum over that half. -/
theorem sum_half (n : ℕ) (hn : 0 < n) (g : ℕ → ℝ) (s : ℕ) (hs : s < 2) :
    ∑ k ∈ Finset.range (n + n), (if k / n = s then g k else 0) = ∑ j ∈ Finset.range n, g (s * n + j) := by
  rw [Finset.sum_range_add]
  have h0 : ∀ j ∈ Finset.range n, j / n = 0 := fun j hj => Nat.div_eq_of_lt (Finset.mem_range.1 hj)
  have h1 : ∀ j ∈ Finset.range n, (n + j) / n = 1 := fun j hj => by
    rw [Nat.add_div_left _ hn, Nat.div_eq_of_lt (Finset.mem_range.1 hj)]
  have hA : ∑ x ∈ Finset.range n, (if x / n = s then g x else 0)
      = ∑ x ∈ Finset.range n, (if 0 = s then g x else 0) :=
    Finset.sum_congr rfl fun j hj => by rw [h0 j hj]
  have hB : ∑ x ∈ Finset.range n, (if (n + x) / n = s then g (n + x) else 0)
      = ∑ x ∈ Finset.range n, (if 1 = s then g (n + x) else 0) :=
    Finset.sum_congr rfl fun j hj => by rw [h1 j hj]
  rw [hA, hB]
  interval_cases s
  · simp
  · simp

/-! ## Extended reals that are reals -/

/-- A finite sum of reals, taken on the extended reals, is the real sum. -/
theorem coe_sum (s : Finset ι) (f : ι → ℝ) : (∑ k ∈ s, (f k : EReal)) = ((∑ k ∈ s, f k : ℝ) : EReal) := by
  classical
  refine Finset.induction_on s (by simp) fun a s ha ih => ?_
  rw [Finset.sum_insert ha, Finset.sum_insert ha, ih, EReal.coe_add]

/-- The maximum of a nonempty finite family of reals, folded from `-∞`, is a real. -/
theorem fold_max_coe (s : Finset ι) (hs : s.Nonempty) (r : ι → ℝ) :
    ∃ c : ℝ, s.fold max (⊥ : EReal) (fun k => (r k : EReal)) = (c : EReal) := by
  obtain ⟨k0, hk0⟩ := hs
  refine ⟨(s.fold max (⊥ : EReal) fun k => (r k : EReal)).toReal, (EReal.coe_toReal ?_ ?_).symm⟩
  · exact ne_of_lt ((Finset.fold_max_lt _).2 ⟨bot_lt_top, fun x _ => EReal.coe_lt_top _⟩)
  · exact ne_of_gt ((Finset.lt_fold_max _).2 (Or.inr ⟨k0, hk0, EReal.bot_lt_coe _⟩))

/-- The quotient the kernel and the reference both form, on the extended reals: exponentials of real logits
    less a real shift, over their sum. It is the real softmax, and the shift is gone. -/
theorem ideal_soft (s : Finset ι) (l : ι → ℝ) (c : ℝ) (i : ι) (hi : i ∈ s) :
    Ideal.div (Ideal.exp ((l i : EReal) - (c : EReal))) (∑ k ∈ s, Ideal.exp ((l k : EReal) - (c : EReal)))
      = ((Real.exp (l i) / ∑ k ∈ s, Real.exp (l k) : ℝ) : EReal) := by
  have hpos : (0 : ℝ) < ∑ k ∈ s, Real.exp (l k - c) := Finset.sum_pos (fun k _ => Real.exp_pos _) ⟨i, hi⟩
  simp only [← EReal.coe_sub, Ideal.exp_coe]
  rw [coe_sum, Ideal.div_coe (ne_of_gt hpos), ← EReal.coe_mul, mul_one_div, exp_shift_div]

/-! ## The router's values -/

/-- Token `t`'s logit for expert `e`. -/
def logit (x w : ℕ → ℕ → ℝ) (b : ℕ → ℝ) (t e : ℕ) : ℝ := (∑ k ∈ Finset.range 4096, x t k * w e k) + b e

/-- The softmax of 64 logits. -/
def soft (l : ℕ → ℝ) (e : ℕ) : ℝ := Real.exp (l e) / ∑ k ∈ Finset.range 64, Real.exp (l k)

/-- The logit in lane `q` of packed row `r`: two tokens' features laid side by side against a block-diagonal
    weight (expert `q % 64`'s row in the half `q / 64`, zero in the other) pick token `2 r + q / 64`. -/
theorem packed_logit (x w : ℕ → ℕ → ℝ) (b : ℕ → ℝ) (r q : ℕ) (hq : q < 128) :
    (∑ kk ∈ Finset.range 8192, x (2 * r + kk / 4096) (kk % 4096) * (if kk / 4096 = q / 64 then w (q % 64) (kk % 4096) else 0))
        + b (q % 64)
      = logit x w b (2 * r + q / 64) (q % 64) := by
  unfold logit
  congr 1
  rw [Finset.sum_congr rfl (fun kk _ => (mul_ite _ _ _ _).trans (by rw [mul_zero]))]
  rw [show (8192 : ℕ) = 4096 + 4096 from rfl,
    sum_half 4096 (by decide) (fun kk => x (2 * r + kk / 4096) (kk % 4096) * w (q % 64) (kk % 4096)) (q / 64) (by omega)]
  refine Finset.sum_congr rfl fun j hj => ?_
  have hj' := Finset.mem_range.1 hj
  have e1 : (q / 64 * 4096 + j) / 4096 = q / 64 := by omega
  have e2 : (q / 64 * 4096 + j) % 4096 = j := by omega
  rw [e1, e2]

/-- The sum a row of exponentials forms against the block-diagonal matrix of ones: lane `q`'s own half. -/
theorem segment_sum (E : ℕ → ℝ) (q : ℕ) (hq : q < 128) :
    ∑ k ∈ Finset.range 128, E k * (if k / 64 = q / 64 then (1 : ℝ) else 0)
      = ∑ e ∈ Finset.range 64, E (q / 64 * 64 + e) := by
  rw [Finset.sum_congr rfl (fun k _ => (mul_ite _ _ _ _).trans (by rw [mul_one, mul_zero]))]
  exact sum_half 64 (by decide) E (q / 64) (by omega)

/-! ## The arrays -/

open Idealize.ShloMosaic.ValueIdx

/-- The router's result as an array over the extended reals: every token's softmax over the experts. -/
def G (x w : ℕ → ℕ → ℝ) (b : ℕ → ℝ) : (⟨2, ![32768, 64]⟩ : Shape).Idx → EReal :=
  fun i => ((soft (logit x w b (i 0).val) (i 1).val : ℝ) : EReal)

/-- The real an entry of a rank-2 array over the extended reals denotes (zero off the array). -/
def re2 {n0 n1 : ℕ} (X : (⟨2, ![n0, n1]⟩ : Shape).Idx → EReal) (t k : ℕ) : ℝ :=
  if h : t < n0 ∧ k < n1 then (X (ix2 ⟨t, h.1⟩ ⟨k, h.2⟩)).toReal else 0

/-- The real an entry of a rank-1 array over the extended reals denotes (zero off the array). -/
def re1 {n : ℕ} (B : (⟨1, ![n]⟩ : Shape).Idx → EReal) (e : ℕ) : ℝ :=
  if h : e < n then (B (ix1 ⟨e, h⟩)).toReal else 0

/-- A finite entry is the real it denotes. -/
theorem coe_re2 {n0 n1 : ℕ} (X : (⟨2, ![n0, n1]⟩ : Shape).Idx → EReal) (hX : ∀ i, X i ≠ ⊤ ∧ X i ≠ ⊥)
    (i : (⟨2, ![n0, n1]⟩ : Shape).Idx) : X i = ((re2 X (i 0).val (i 1).val : ℝ) : EReal) := by
  unfold re2
  rw [dif_pos ⟨idx2_lt0 i, idx2_lt1 i⟩]
  have e : ix2 (⟨(i 0).val, idx2_lt0 i⟩ : Fin n0) (⟨(i 1).val, idx2_lt1 i⟩ : Fin n1) = i := (eq_ix2 i).symm
  rw [e, EReal.coe_toReal (hX i).1 (hX i).2]

/-- A finite entry is the real it denotes. -/
theorem coe_re1 {n : ℕ} (B : (⟨1, ![n]⟩ : Shape).Idx → EReal) (hB : ∀ i, B i ≠ ⊤ ∧ B i ≠ ⊥)
    (i : (⟨1, ![n]⟩ : Shape).Idx) : B i = ((re1 B (i 0).val : ℝ) : EReal) := by
  unfold re1
  have hlt : (i 0).val < n := (i 0).isLt
  rw [dif_pos hlt]
  have e : ix1 (⟨(i 0).val, hlt⟩ : Fin n) = i := (eq_ix1 i).symm
  rw [e, EReal.coe_toReal (hB i).1 (hB i).2]

end Cert.Router

end
-- ==== Proof.Finite.lean ====
import proofs.«154467_g1906965480197_cont_8to1_1390_18_alg».proof.Pre_finite_inputs
import proofs.«154467_g1906965480197_cont_8to1_1390_18_alg».proof.Proof.Gen.Pre_finite_inputs
import Idealize.ShloMosaic.Lib.ValueIdx
import Idealize.ShloMosaic.Lib.ReduceAll
import Idealize.ShloMosaic.PureOps.Ideal

/-!
# The precondition says every entry is a real

`finite_inputs` compares each entry's absolute value with `+∞`; where it holds, no entry of the three
arguments is an infinity.
-/

noncomputable section

namespace Cert.Router

open Idealize.ShloMosaic Idealize.ShloMosaic.ValueIdx

/-- The scalar shape has one index. -/
private instance : Subsingleton Cert.Pre_finite_inputs.S_.Idx := ⟨fun a b => funext fun d => d.elim0⟩

/-- The single-precision pattern with every exponent bit set and no fraction bit denotes +∞. -/
private theorem inf_bits : Ideal.ofBits .f32 0x7F800000#32 = (⊤ : EReal) := by
  simp [Ideal.ofBits, Ideal.ieee]

/-- On the extended reals, |x| < +∞ with |x| = max x (-x) says x is neither infinity: max x (-x) < ⊤ gives
    x < ⊤ and -x < ⊤, and -⊥ = ⊤ is not below ⊤. -/
private theorem real_of_abs_lt_top (x : EReal) (h : Ideal.cmp .olt (max x (-x)) ⊤ = 1#1) : x ≠ ⊤ ∧ x ≠ ⊥ := by
  have h' : max x (-x) < ⊤ := by
    unfold Ideal.cmp at h
    by_contra hc
    simp [hc] at h
  obtain ⟨h1, h2⟩ := max_lt_iff.1 h'
  refine ⟨ne_of_lt h1, ?_⟩
  rintro rfl
  simp at h2

/-- One bit of the comparison array, read at an index: the compared entry is |V i|, the bound is the scalar +∞
    broadcast to every index, and the comparison is the linear order's. -/
private theorem real_of_bit {s : Shape} (hb : Cert.Pre_finite_inputs.S_.BroadcastsInDim s ![]) (V : FVec Ideal s .f32) (i : s.Idx)
    (e : cmpf .olt (Host.absf V)
        (broadcastInDim s ![] hb (constant Cert.Pre_finite_inputs.S_ .f32 0x7F800000#32)) i = 1#1) :
    (V i : EReal) ≠ ⊤ ∧ (V i : EReal) ≠ ⊥ := by
  have e' : Ideal.cmp .olt (max (V i) (-(V i))) (Ideal.ofBits .f32 0x7F800000#32) = 1#1 := e
  rw [inf_bits] at e'
  exact real_of_abs_lt_top _ e'

theorem real_of_pre (X : FVec Ideal Cert.Pre_finite_inputs.S32768x4096 .f32) (W : FVec Ideal Cert.Pre_finite_inputs.S64x4096 .f32)
    (B : FVec Ideal Cert.Pre_finite_inputs.S64 .f32)
    (h : Cert.Pre_finite_inputs.fn (F := Ideal) X W B = fun _ => 1#1) :
    (∀ i, (X i : EReal) ≠ ⊤ ∧ (X i : EReal) ≠ ⊥) ∧ (∀ i, (W i : EReal) ≠ ⊤ ∧ (W i : EReal) ≠ ⊥)
      ∧ (∀ i, (B i : EReal) ≠ ⊤ ∧ (B i : EReal) ≠ ⊥) := by
  -- the function's one result bit is the conjunction of three reductions by `and`, one per argument
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  -- a reduction by `and` over every axis that came out 1 met a 1 at every index
  exact ⟨fun i => real_of_bit _ X i (Host.reduce_andi_all _ _ _ _ _ h1 i),
    fun i => real_of_bit _ W i (Host.reduce_andi_all _ _ _ _ _ h2 i),
    fun i => real_of_bit _ B i (Host.reduce_andi_all _ _ _ _ _ h3 i)⟩

end Cert.Router

end
-- ==== Proof.Reference.lean ====
import proofs.«154467_g1906965480197_cont_8to1_1390_18_alg».proof.Proof.Gen.ReferenceIdeal.Read
import proofs.«154467_g1906965480197_cont_8to1_1390_18_alg».proof.Proof.Softmax
import Idealize.ShloMosaic.Lib.ValueIdx
import Idealize.ShloMosaic.Lib.Pipeline.Value
import Idealize.ShloMosaic.PureOps.Ideal.Laws

/-!
# The reference computes the softmax of the logits

At real arguments the reference's result term is `G`: its logits are the real logits, the row maximum it
subtracts is a real, and a real shift cancels in the quotient.
-/

noncomputable section

namespace Cert.Router

open Idealize.ShloMosaic Idealize.ShloMosaic.ValueIdx Cert.ReferenceIdeal Cert.ReferenceIdeal.Gen

/-! ## The stages, read at an index -/

section

open Cert.ReferenceIdeal.Read

/-- The reference's logits are the real logits: a contraction of real entries is the real sum of the real
    products, and adding the real bias keeps it real. -/
theorem reference_logit (X : (⟨S32768x4096, .f32⟩ : BufTy).Contents (Elt Ideal)) (W : (⟨S64x4096, .f32⟩ : BufTy).Contents (Elt Ideal))
    (B : (⟨S64, .f32⟩ : BufTy).Contents (Elt Ideal)) (x w : ℕ → ℕ → ℝ) (b : ℕ → ℝ)
    (hX : ∀ i, (X i : EReal) = ((x (i 0).val (i 1).val : ℝ) : EReal))
    (hW : ∀ i, (W i : EReal) = ((w (i 0).val (i 1).val : ℝ) : EReal))
    (hB : ∀ i, (B i : EReal) = ((b (i 0).val : ℝ) : EReal)) (t : Fin 32768) (e : Fin 64) :
    val_main_v4 (F := Ideal) X W B (ix2 t e) = ((logit x w b t.val e.val : ℝ) : EReal) := by
  rw [val_main_v4_apply, val_main_v1_apply, val_main_v3_apply, val_main_v2_apply, Ideal.addf_def]
  have h1 : ∀ k : Fin 4096, X (lidx_main_v1 (ix2 t e) k) * val_main_v0 (F := Ideal) W (ridx_main_v1 (ix2 t e) k)
      = ((x t.val k.val * w e.val k.val : ℝ) : EReal) := fun k => by
    rw [val_main_v0_apply, hX, hW, EReal.coe_mul]
  rw [Finset.sum_congr rfl (fun k _ => h1 k), coe_sum, hB, ← EReal.coe_add]
  unfold logit
  rw [Fin.sum_univ_eq_sum_range (fun k => x t.val k * w e.val k) 4096]

/-- The reduced index `t` with expert `k` put back on the dropped axis is (t, k). -/
theorem reference_lift_row (h : S32768x64.Reduces [1] S32768) (t : Fin 32768) (k : Fin (S32768x64.size 1)) :
    h.lift (ix1 t) k = ix2 t (⟨k.val, k.isLt⟩ : Fin 64) := by
  funext c; apply Fin.ext
  fin_cases c <;> rfl

/-- The row maximum the reference subtracts, taken from `-∞`, is a real: every logit of the row is one. -/
theorem reference_rowmax_real (X : (⟨S32768x4096, .f32⟩ : BufTy).Contents (Elt Ideal)) (W : (⟨S64x4096, .f32⟩ : BufTy).Contents (Elt Ideal))
    (B : (⟨S64, .f32⟩ : BufTy).Contents (Elt Ideal)) (x w : ℕ → ℕ → ℝ) (b : ℕ → ℝ)
    (hX : ∀ i, (X i : EReal) = ((x (i 0).val (i 1).val : ℝ) : EReal))
    (hW : ∀ i, (W i : EReal) = ((w (i 0).val (i 1).val : ℝ) : EReal))
    (hB : ∀ i, (B i : EReal) = ((b (i 0).val : ℝ) : EReal)) (t : Fin 32768) :
    ∃ c : ℝ, val_main_v7 (F := Ideal) X W B (ix1 t) = (c : EReal) := by
  have hR : S32768x64.Reduces [1] S32768 := by decide
  have hbot : Ideal.ofBits .f32 0xFF800000#32 = (⊥ : EReal) := by simp [Ideal.ofBits, Ideal.ieee]
  rw [val_main_v7_apply, val_main_v6_apply, val_main_cst_0_apply, Ideal.maximumf_def, Ideal.ofBits_def, hbot]
  unfold val_main_v5
  rw [Host.reduce_eq_fold_single FloatOps.maximumf _ _ reducesTo_S32768x64_S32768_d1 hR h_S_ (ix1 t),
    val_main_cst_apply, Ideal.ofBits_def, hbot]
  have hf : (val_main_v4 (F := Ideal) X W B ∘ hR.lift (ix1 t))
      = fun k : Fin 64 => ((logit x w b t.val k.val : ℝ) : EReal) := funext fun k => by
    show val_main_v4 (F := Ideal) X W B (hR.lift (ix1 t) k) = _
    rw [reference_lift_row hR t k, reference_logit X W B x w b hX hW hB]
  obtain ⟨c, hc⟩ := fold_max_coe (Finset.univ : Finset (Fin 64)) ⟨0, Finset.mem_univ _⟩ (fun k => logit x w b t.val k.val)
  refine ⟨c, ?_⟩
  rw [hf]
  show max (⊥ : EReal) (Finset.univ.fold max (⊥ : EReal) fun k : Fin 64 => ((logit x w b t.val k.val : ℝ) : EReal)) = _
  rw [hc, max_eq_right bot_le]

/-- With row `t`'s shift a real `c`, the reference's exponential at (t, e) is the exponential of the real logit
    less `c`. -/
theorem reference_exp (X : (⟨S32768x4096, .f32⟩ : BufTy).Contents (Elt Ideal)) (W : (⟨S64x4096, .f32⟩ : BufTy).Contents (Elt Ideal))
    (B : (⟨S64, .f32⟩ : BufTy).Contents (Elt Ideal)) (x w : ℕ → ℕ → ℝ) (b : ℕ → ℝ)
    (hX : ∀ i, (X i : EReal) = ((x (i 0).val (i 1).val : ℝ) : EReal))
    (hW : ∀ i, (W i : EReal) = ((w (i 0).val (i 1).val : ℝ) : EReal))
    (hB : ∀ i, (B i : EReal) = ((b (i 0).val : ℝ) : EReal)) (t : Fin 32768) (e : Fin 64) (c : ℝ)
    (hc : val_main_v7 (F := Ideal) X W B (ix1 t) = (c : EReal)) :
    val_main_v11 (F := Ideal) X W B (ix2 t e)
      = Ideal.exp (((logit x w b t.val e.val : ℝ) : EReal) - (c : EReal)) := by
  have hi : idx_main_v8 (idx_main_v9 (ix2 t e)) = ix1 t := funext fun a => by
    match a with | ⟨0, _⟩ => rfl
  rw [val_main_v11_apply, val_main_v10_apply, val_main_v9_apply, val_main_v8_apply, hi, hc,
    reference_logit X W B x w b hX hW hB, Ideal.hostUnary_exp_def, Ideal.subf_def]

/-- The reference's quotient at (t, e) is the real softmax of row `t`'s logits at `e`: numerator and denominator
    carry the same real shift, which cancels. -/
theorem reference_soft (X : (⟨S32768x4096, .f32⟩ : BufTy).Contents (Elt Ideal)) (W : (⟨S64x4096, .f32⟩ : BufTy).Contents (Elt Ideal))
    (B : (⟨S64, .f32⟩ : BufTy).Contents (Elt Ideal)) (x w : ℕ → ℕ → ℝ) (b : ℕ → ℝ)
    (hX : ∀ i, (X i : EReal) = ((x (i 0).val (i 1).val : ℝ) : EReal))
    (hW : ∀ i, (W i : EReal) = ((w (i 0).val (i 1).val : ℝ) : EReal))
    (hB : ∀ i, (B i : EReal) = ((b (i 0).val : ℝ) : EReal)) (t : Fin 32768) (e : Fin 64) :
    val_main_v15 (F := Ideal) X W B (ix2 t e) = ((soft (logit x w b t.val) e.val : ℝ) : EReal) := by
  obtain ⟨c, hc⟩ := reference_rowmax_real X W B x w b hX hW hB t
  have hs : ∀ k : Fin 64, val_main_v11 (F := Ideal) X W B (idx_main_v12 (idx_main_v13 (idx_main_v14 (ix2 t e))) k)
      = Ideal.exp (((logit x w b t.val k.val : ℝ) : EReal) - (c : EReal)) := fun k => by
    have hi : idx_main_v12 (idx_main_v13 (idx_main_v14 (ix2 t e))) k = ix2 t k := funext fun a => by
      match a with | ⟨0, _⟩ => rfl | ⟨1, _⟩ => rfl
    rw [hi, reference_exp X W B x w b hX hW hB t k c hc]
  rw [val_main_v15_apply, val_main_v14_apply, val_main_v13_apply, val_main_v12_apply, val_main_cst_1_apply,
    Ideal.hostDivf_def, Ideal.ofBits_def, Ideal.ofBits_zero_f32, zero_add,
    reference_exp X W B x w b hX hW hB t e c hc, Finset.sum_congr rfl (fun k _ => hs k),
    Fin.sum_univ_eq_sum_range (fun k => Ideal.exp (((logit x w b t.val k : ℝ) : EReal) - (c : EReal))) 64]
  exact ideal_soft (Finset.range 64) (logit x w b t.val) c e.val (Finset.mem_range.2 e.isLt)

end

theorem reference_eq_G (X : (⟨S32768x4096, .f32⟩ : BufTy).Contents (Elt Ideal)) (W : (⟨S64x4096, .f32⟩ : BufTy).Contents (Elt Ideal))
    (B : (⟨S64, .f32⟩ : BufTy).Contents (Elt Ideal)) (x w : ℕ → ℕ → ℝ) (b : ℕ → ℝ)
    (hX : ∀ i, (X i : EReal) = ((x (i 0).val (i 1).val : ℝ) : EReal))
    (hW : ∀ i, (W i : EReal) = ((w (i 0).val (i 1).val : ℝ) : EReal))
    (hB : ∀ i, (B i : EReal) = ((b (i 0).val : ℝ) : EReal)) :
    Cert.ReferenceIdeal.Read.val_main_v15 (F := Ideal) X W B = G x w b := by
  funext i
  rw [eq_ix2 i]
  exact reference_soft X W B x w b hX hW hB (i 0) (i 1)

end Cert.Router

end
-- ==== Proof.Terms.lean ====
import proofs.«154467_g1906965480197_cont_8to1_1390_18_alg».proof.Proof.Gen.KernelIdeal

/-!
# What the host computes before the kernel is launched

The kernel works on a packed layout: row `r` of the packed token array holds tokens `2 r` and `2 r + 1`
side by side. The four arrays the kernel's windows stage are host values of the arguments:

* `pairedTokens X`: the tokens reshaped, two to a row;
* `packedWeight W`: a block-diagonal weight — the transposed weight written into the upper-left and the
  lower-right quadrant of a zero matrix by two scatters at the start indices `(0, 0)` and `(4096, 64)`;
* `pairedBias B`: the bias twice, as one row;
* `segmentOnes`: the 128 × 128 matrix with a one where two lanes belong to the same token (`k / 64 = j / 64`,
  the quotient spelt as jnp's `floor_divide` spells it) and a zero elsewhere.
-/

noncomputable section

namespace Cert.Router

open Idealize.ShloMosaic Cert.KernelIdeal Cert.KernelIdeal.Gen

variable {F : FTy → Type} [FloatOps F]

/-- Two 32-bit numbers as the index vector a scatter reads its start from. -/
def startPair (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- The transposed weight, `[4096, 64]`. -/
def weightT (W : (⟨S64x4096, .f32⟩ : BufTy).Contents (Elt F)) : (⟨S4096x64, .bf16⟩ : BufTy).Contents (Elt F) :=
  truncf .bf16 (transpose S4096x64 [1, 0] W transposes_S64x4096_S4096x64_1_0) bitsLt_bf16_f32

/-- The block-diagonal weight, `[8192, 128]`. -/
def packedWeight (W : (⟨S64x4096, .f32⟩ : BufTy).Contents (Elt F)) : (⟨S8192x128, .bf16⟩ : BufTy).Contents (Elt F) :=
  Host.scatter scatter_S8192x128_S2_S4096x64_01_n_01_0 (fun _ b => b)
    (Host.scatter scatter_S8192x128_S2_S4096x64_01_n_01_0 (fun _ b => b)
      (broadcastInDim S8192x128 ![] bcast_S_S8192x128 (constant S_ .bf16 0x0000#16))
      (startPair 0#32 0#32) (weightT W))
    (startPair 4096#32 64#32) (weightT W)

/-- The bias twice, as a `[1, 128]` row. -/
def pairedBias (B : (⟨S64, .f32⟩ : BufTy).Contents (Elt F)) : (⟨S1x128, .f32⟩ : BufTy).Contents (Elt F) :=
  shapeCast S1x128 (concatenate S128 0 [⟨S64, B⟩, ⟨S64, B⟩] concatenates_S64_S64_S128_d0) shapeCasts_S128_S1x128

/-- The tokens two to a row, `[16384, 8192]`. -/
def pairedTokens (X : (⟨S32768x4096, .f32⟩ : BufTy).Contents (Elt F)) : (⟨S16384x8192, .f32⟩ : BufTy).Contents (Elt F) :=
  shapeCast S16384x8192 X shapeCasts_S32768x4096_S16384x8192

/-- The divisor 64 broadcast along the lanes. -/
def lanes64 : IVec S128 32 := broadcastInDim S128 ![] bcast_S_S128 (id (constantI S_ 32 64#32))

/-- The truncated quotient of the lane number by 64. -/
def laneQuot : IVec S128 32 := Host.divsi (iotaInDim S128 32 0) lanes64

/-- The token a lane belongs to, `lane // 64` as jnp lowers `floor_divide`: the truncated quotient, less one
    where the signs of dividend and divisor differ and the remainder is not zero. -/
def laneToken : IVec S128 32 :=
  select
    (andi
      (cmpi .ne (signi (iotaInDim S128 32 0)) (broadcastInDim S128 ![] bcast_S_S128 (signi (id (constantI S_ 32 64#32)))))
      (cmpi .ne (Host.remsi (iotaInDim S128 32 0) lanes64) (broadcastInDim S128 ![] bcast_S_S128 (constantI S_ 32 0#32))))
    (subi laneQuot (broadcastInDim S128 ![] bcast_S_S128 (constantI S_ 32 1#32)))
    laneQuot

/-- The `[128, 128]` matrix with a one where row lane and column lane belong to one token. -/
def segmentOnes : (⟨S128x128, .f32⟩ : BufTy).Contents (Elt F) :=
  uitofp .f32
    (cmpi .eq
      (broadcastInDim S128x128 ![0, 1] bcast_S128x1_S128x128_0_1 (broadcastInDim S128x1 ![0] bcast_S128_S128x1_0 laneToken))
      (broadcastInDim S128x128 ![0, 1] bcast_S1x128_S128x128_0_1 (broadcastInDim S1x128 ![1] bcast_S128_S1x128_1 laneToken)))

end Cert.Router

end
-- ==== Proof.Entry.lean ====
import proofs.«154467_g1906965480197_cont_8to1_1390_18_alg».proof.Proof.Gen.KernelIdeal.Frame
import proofs.«154467_g1906965480197_cont_8to1_1390_18_alg».proof.Proof.Terms
import Idealize.ShloMosaic.Lib.StableHlo.Run

/-!
# What the region finds

The four arrays the kernel's windows stage hold, when the region is entered, the host values of `Terms`
at the argument arrays: each is read off the host operations that precede the launch.
-/

set_option maxRecDepth 16384

noncomputable section

namespace Cert.Router

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- Window 0 stages the tokens two to a row. -/
theorem entry_tokens (c : Dev nD) : V m c main_v21 = pairedTokens (m ((c : Thread nD τ).loc main_arg0)) := by
  dsimp only [V, V0]
  simp only [hostOps0, hostOps0_1, hostOps0_2, List.flatten_cons, List.flatten_nil, List.append_nil, List.cons_append, List.nil_append]
  after_results_simp
  rfl

/-- Window 1 stages the block-diagonal weight. -/
theorem entry_weight (c : Dev nD) : V m c main_v10 = packedWeight (m ((c : Thread nD τ).loc main_arg1)) := by
  dsimp only [V, V0]
  simp only [hostOps0, hostOps0_1, hostOps0_2, List.flatten_cons, List.flatten_nil, List.append_nil, List.cons_append, List.nil_append]
  after_results_simp
  rfl

/-- Window 2 stages the bias twice. -/
theorem entry_bias (c : Dev nD) : V m c main_v12 = pairedBias (m ((c : Thread nD τ).loc main_arg2)) := by
  dsimp only [V, V0]
  simp only [hostOps0, hostOps0_1, hostOps0_2, List.flatten_cons, List.flatten_nil, List.append_nil, List.cons_append, List.nil_append]
  after_results_simp
  rfl

set_option maxHeartbeats 1000000 in
/-- Window 3 stages the matrix of ones on the two diagonal blocks. -/
theorem entry_ones (c : Dev nD) : V m c main_v20 = segmentOnes (F := F) := by
  dsimp only [V, V0]
  simp only [hostOps0, hostOps0_1, hostOps0_2, List.flatten_cons, List.flatten_nil, List.append_nil, List.cons_append, List.nil_append]
  after_results_simp
  rfl

end Cert.Router

end
-- ==== Proof.Layout.lean ====
import proofs.«154467_g1906965480197_cont_8to1_1390_18_alg».proof.Proof.Terms
import Idealize.ShloMosaic.Lib.ValueIdx
import Idealize.ShloMosaic.Lib.Pipeline.Value

/-!
# The packed layout read at an index

Reshaping `[32768, 4096]` to `[16384, 8192]` lays tokens `2 r` and `2 r + 1` side by side in row `r`;
concatenating the bias with itself puts expert `j % 64`'s bias in lane `j`; and reshaping the packed result
`[16384, 128]` back to `[32768, 64]` reads token `t`, expert `e` from lane `64 (t % 2) + e` of row `t / 2`.
-/

noncomputable section

namespace Cert.Router

open Idealize.ShloMosaic Idealize.ShloMosaic.ValueIdx Cert.KernelIdeal Cert.KernelIdeal.Gen

variable {F : FTy → Type} [FloatOps F]

theorem pairedTokens_apply (X : (⟨S32768x4096, .f32⟩ : BufTy).Contents (Elt F)) (r : Fin 16384) (kk : Fin 8192) :
    pairedTokens X (ix2 r kk)
      = X (ix2 (⟨2 * r.val + kk.val / 4096, by have := r.isLt; have := kk.isLt; omega⟩ : Fin 32768)
            (⟨kk.val % 4096, Nat.mod_lt _ (by decide)⟩ : Fin 4096)) := by
  unfold pairedTokens
  -- both indices have row-major position 8192 r + kk
  refine shapeCast_apply X _ _ _ ?_
  rw [Shape.rowMajor_val_two, Shape.rowMajor_val_two]
  show (2 * r.val + kk.val / 4096) * 4096 + kk.val % 4096 = r.val * 8192 + kk.val
  omega

theorem pairedBias_apply (B : (⟨S64, .f32⟩ : BufTy).Contents (Elt F)) (j : Fin 128) :
    pairedBias B (ix2 (0 : Fin 1) j) = B (ix1 (⟨j.val % 64, Nat.mod_lt _ (by decide)⟩ : Fin 64)) := by
  unfold pairedBias
  -- the one-row reshape reads the doubled vector at lane j
  refine (shapeCast_apply _ shapeCasts_S128_S1x128 (ix2 (0 : Fin 1) j) (ix1 j) ?_).trans ?_
  · rw [Shape.rowMajor_val_two, Shape.rowMajor_val_one]
    show j.val = 0 * 128 + j.val
    omega
  · by_cases hj : j.val < 64
    · -- lanes below 64 lie in the first copy, at the same position
      refine concatenate_pair_apply_left (0 : Fin 1) B B concatenates_S64_S64_S128_d0 (ix1 j) rfl _ ?_
      intro b
      match b with
      | ⟨0, _⟩ =>
        show j.val % 64 = j.val
        omega
    · -- lanes from 64 on lie in the second copy, 64 positions further on
      refine concatenate_pair_apply_right (0 : Fin 1) B B concatenates_S64_S64_S128_d0 (ix1 j) rfl rfl _ ?_ ?_
      · intro b hb
        match b, hb with
        | ⟨0, _⟩, hb => exact absurd rfl hb
      · show j.val % 64 + 64 = j.val
        have := j.isLt
        omega

theorem unpaired_apply (Pk : (⟨S16384x128, .f32⟩ : BufTy).Contents (Elt F)) (t : Fin 32768) (e : Fin 64) :
    shapeCast S32768x64 Pk shapeCasts_S16384x128_S32768x64 (ix2 t e)
      = Pk (ix2 (⟨t.val / 2, by have := t.isLt; omega⟩ : Fin 16384)
            (⟨64 * (t.val % 2) + e.val, by have := e.isLt; omega⟩ : Fin 128)) := by
  -- both indices have row-major position 64 t + e
  refine shapeCast_apply Pk _ _ _ ?_
  rw [Shape.rowMajor_val_two, Shape.rowMajor_val_two]
  show (t.val / 2) * 128 + (64 * (t.val % 2) + e.val) = t.val * 64 + e.val
  omega

end Cert.Router

end
-- ==== Proof.LibScatterSet.lean ====
import Idealize.ShloMosaic.PureOps.ShapeOps

/-!
# A scatter whose body returns the update, read at an index

`Host.scatter` is a left fold over the update indices in row-major order; each step overwrites the
operand's element at the update index's result index (when it has one) by the body applied to the old
element and the update. When the body is `fun _ b => b` (a SET) the fold can be read at one result index:

* if exactly one update index lands on `i`, the result at `i` is that update's element
  (`scatter_set_hit`);
* if no update index lands on `i`, the result at `i` is the operand's element (`scatter_set_miss`).

Both follow from one statement about a left fold of overwriting steps over any list
(`foldl_overwrite_apply`).
-/

namespace Cert.Router

open Idealize.ShloMosaic

/-- A left fold of steps read at one position `i`, where step `n` writes `v n` at `i` when `g n = some i`
    and leaves position `i` alone otherwise. If `j` writes at `i` and every `n` of the list that writes at
    `i` is `j`, the fold's value at `i` is `v j` when `j` is in the list and the start value's when it is not. -/
theorem foldl_overwrite_apply {ι κ α : Type} (step : (κ → α) → ι → (κ → α)) (g : ι → Option κ) (v : ι → α) (i : κ)
    (hhit : ∀ r n, g n = some i → step r n i = v n) (hmiss : ∀ r n, g n ≠ some i → step r n i = r i)
    (j : ι) (hg : g j = some i) (l : List ι) (huniq : ∀ n ∈ l, g n = some i → n = j) (x : κ → α) :
    (j ∈ l → l.foldl step x i = v j) ∧ (j ∉ l → l.foldl step x i = x i) := by
  induction l generalizing x with
  | nil => exact ⟨fun h => absurd h List.not_mem_nil, fun _ => rfl⟩
  | cons n l ih =>
    obtain ⟨ih1, ih2⟩ := ih (fun m hm => huniq m (List.mem_cons_of_mem _ hm)) (step x n)
    rw [List.foldl_cons]
    by_cases hjl : j ∈ l
    · exact ⟨fun _ => ih1 hjl, fun h => absurd (List.mem_cons_of_mem _ hjl) h⟩
    · by_cases hnj : n = j
      · subst hnj
        exact ⟨fun _ => (ih2 hjl).trans (hhit x n hg), fun h => absurd List.mem_cons_self h⟩
      · have hne : g n ≠ some i := fun h => hnj (huniq n List.mem_cons_self h)
        refine ⟨fun h => ?_, fun _ => (ih2 hjl).trans (hmiss x n hne)⟩
        rcases List.mem_cons.1 h with h | h
        · exact absurd h.symm hnj
        · exact absurd h hjl

/-- A left fold of steps none of which writes at `i` leaves the start value at `i`. -/
theorem foldl_overwrite_apply_miss {ι κ α : Type} (step : (κ → α) → ι → (κ → α)) (g : ι → Option κ) (i : κ)
    (hmiss : ∀ r n, g n ≠ some i → step r n i = r i)
    (l : List ι) (hnone : ∀ n ∈ l, g n ≠ some i) (x : κ → α) :
    l.foldl step x i = x i := by
  induction l generalizing x with
  | nil => rfl
  | cons n l ih =>
    rw [List.foldl_cons, ih (fun m hm => hnone m (List.mem_cons_of_mem _ hm))]
    exact hmiss x n (hnone n List.mem_cons_self)

variable {s si u : Shape} {α : Type} {w : Nat}

/-- One step of the SET scatter's fold writes the update's element at the update index's result index … -/
private theorem scatter_step_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then (fun _ b => b) (r k) (upd (u.rowMajor.symm n)) else r i'
      | none => r) i = upd (u.rowMajor.symm n) := by
  rw [h]
  simp

/-- … and leaves every other position alone. -/
private theorem scatter_step_miss (d : ScatterDims s si u) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then (fun _ b => b) (r k) (upd (u.rowMajor.symm n)) else r i'
      | none => r) i = r i := by
  generalize d.resultIdx? (u.rowMajor.symm n) idx = o at h ⊢
  cases o with
  | none => rfl
  | some k =>
    have hik : i ≠ k := fun e => h (by rw [e])
    simp [hik]

/-- A SET scatter read where exactly one update lands: if update index `j` has result index `i` and is the
    only update index that has, the scattered array holds `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  unfold Host.scatter
  refine ((foldl_overwrite_apply _ (fun n => d.resultIdx? (u.rowMajor.symm n) idx) (fun n => upd (u.rowMajor.symm n)) i
    (fun r n h => scatter_step_hit d idx upd i r n h) (fun r n h => scatter_step_miss d idx upd i r n h)
    (u.rowMajor j) ?_ (List.finRange u.numel) ?_ x).1 (List.mem_finRange _)).trans ?_
  · simpa using hj
  · intro n _ hn
    have := huniq _ hn
    rw [← this]; simp
  · simp

/-- A SET scatter read where no update lands: if no update index has result index `i`, the scattered array
    holds the operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  unfold Host.scatter
  exact foldl_overwrite_apply_miss _ (fun n => d.resultIdx? (u.rowMajor.symm n) idx) i
    (fun r n h => scatter_step_miss d idx upd i r n h) (List.finRange u.numel) (fun n _ => hnone _) x

end Cert.Router
-- ==== Proof.PackedWeight.lean ====
import proofs.«154467_g1906965480197_cont_8to1_1390_18_alg».proof.Proof.Terms
import Idealize.ShloMosaic.Lib.ValueIdx
import Idealize.ShloMosaic.Lib.Pipeline.Value
import Idealize.ShloMosaic.PureOps.Ideal
import proofs.«154467_g1906965480197_cont_8to1_1390_18_alg».proof.Proof.LibScatterSet

/-!
# The block-diagonal weight read at an index

Entry `(k, j)` of the packed weight is the weight's entry `(j % 64, k % 4096)` when row half and lane half
agree (`k / 4096 = j / 64`: the upper-left and the lower-right quadrant, where the two scatters wrote the
transposed weight) and zero elsewhere.
-/

noncomputable section

namespace Cert.Router

open Idealize.ShloMosaic Idealize.ShloMosaic.ValueIdx Cert.KernelIdeal Cert.KernelIdeal.Gen

/-! ## The index vector of a start -/

/-- The two-number index vector read at its first position. -/
private theorem startPair_apply_zero (a b : BitVec 32) (k : S2.Idx) (hk : (k 0).val = 0) : startPair a b k = a := by
  unfold startPair
  rw [concatenate_pair_apply_left (0 : Fin S2.rank) _ _ concatenates_S1_S1_S2_d0 k rfl (ix1 (0 : Fin 1))
    (fun c => by
      have : c = 0 := Subsingleton.elim _ _
      subst this
      exact hk.symm)]
  rfl

/-- The two-number index vector read at its second position. -/
private theorem startPair_apply_one (a b : BitVec 32) (k : S2.Idx) (hk : (k 0).val = 1) : startPair a b k = b := by
  unfold startPair
  rw [concatenate_pair_apply_right (0 : Fin S2.rank) _ _ concatenates_S1_S1_S2_d0 k rfl rfl (ix1 (0 : Fin 1))
    (fun c hc => by
      have : c = 0 := Subsingleton.elim _ _
      subst this
      exact absurd rfl hc)
    (by rw [hk]; rfl)]
  rfl

/-! ## Where an update lands -/

/-- The scatter of a `[4096, 64]` window into the `[8192, 128]` operand, both axes scattered, the start a
    vector of two numbers. -/
private abbrev sc := scatter_S8192x128_S2_S4096x64_01_n_01_0

private theorem sc_start_zero (a b : BitVec 32) (j : S4096x64.Idx) : sc.start j (startPair a b) 0 = a.toInt := by
  unfold ScatterDims.start
  rw [dif_pos (by decide)]
  rw [startPair_apply_zero]
  rfl

private theorem sc_start_one (a b : BitVec 32) (j : S4096x64.Idx) : sc.start j (startPair a b) 1 = b.toInt := by
  unfold ScatterDims.start
  rw [dif_pos (by decide)]
  rw [startPair_apply_one]
  rfl

private theorem sc_window_zero (j : S4096x64.Idx) : sc.window j 0 = (j 0).val := by
  unfold ScatterDims.window
  rw [dif_pos (by decide)]
  rfl

private theorem sc_window_one (j : S4096x64.Idx) : sc.window j 1 = (j 1).val := by
  unfold ScatterDims.window
  rw [dif_pos (by decide)]
  rfl

/-- With the start `(A, B)` keeping the window inside the operand, update `(r, c)` lands at `(A + r, B + c)`. -/
private theorem sc_resultIdx (a b : BitVec 32) (A B : Nat) (ha : a.toInt = (A : Int)) (hb : b.toInt = (B : Int))
    (hA : A + 4096 ≤ 8192) (hB : B + 64 ≤ 128) (r : Fin 4096) (c : Fin 64) :
    sc.resultIdx? (ix2 r c) (startPair a b)
      = some (ix2 (⟨A + r.val, by omega⟩ : Fin 8192) (⟨B + c.val, by omega⟩ : Fin 128)) := by
  have h0 : sc.start (ix2 r c) (startPair a b) 0 + (sc.window (ix2 r c) 0 : Int) = ((A + r.val : Nat) : Int) := by
    rw [sc_start_zero, sc_window_zero, ha]
    show (A : Int) + ((r.val : Nat) : Int) = _
    push_cast; rfl
  have h1 : sc.start (ix2 r c) (startPair a b) 1 + (sc.window (ix2 r c) 1 : Int) = ((B + c.val : Nat) : Int) := by
    rw [sc_start_one, sc_window_one, hb]
    show (B : Int) + ((c.val : Nat) : Int) = _
    push_cast; rfl
  have h : ∀ ax, 0 ≤ sc.start (ix2 r c) (startPair a b) ax + sc.window (ix2 r c) ax
      ∧ sc.start (ix2 r c) (startPair a b) ax + sc.window (ix2 r c) ax < S8192x128.size ax := by
    intro ax
    match ax with
    | ⟨0, _⟩ =>
      show 0 ≤ sc.start (ix2 r c) (startPair a b) 0 + (sc.window (ix2 r c) 0 : Int)
        ∧ sc.start (ix2 r c) (startPair a b) 0 + (sc.window (ix2 r c) 0 : Int) < ((8192 : Nat) : Int)
      rw [h0]
      have := r.isLt
      omega
    | ⟨1, _⟩ =>
      show 0 ≤ sc.start (ix2 r c) (startPair a b) 1 + (sc.window (ix2 r c) 1 : Int)
        ∧ sc.start (ix2 r c) (startPair a b) 1 + (sc.window (ix2 r c) 1 : Int) < ((128 : Nat) : Int)
      rw [h1]
      have := c.isLt
      omega
  unfold ScatterDims.resultIdx?
  rw [dif_pos h]
  congr 1
  funext ax
  match ax with
  | ⟨0, _⟩ =>
    apply Fin.ext
    show (sc.start (ix2 r c) (startPair a b) 0 + (sc.window (ix2 r c) 0 : Int)).toNat = A + r.val
    rw [h0]; rfl
  | ⟨1, _⟩ =>
    apply Fin.ext
    show (sc.start (ix2 r c) (startPair a b) 1 + (sc.window (ix2 r c) 1 : Int)).toNat = B + c.val
    rw [h1]; rfl

/-- Two rank-2 indices with equal coordinates are equal. -/
private theorem ix2_congr {n0 n1 : Nat} {a a' : Fin n0} {b b' : Fin n1} (ha : a.val = a'.val) (hb : b.val = b'.val) :
    ix2 a b = ix2 a' b' := by
  cases Fin.ext ha; cases Fin.ext hb; rfl

/-- The SET scatter of a `[4096, 64]` window at a start `(A, B)` that keeps it inside the operand, read at
    `(k, j)`: the window's element `(k - A, j - B)` where `(k, j)` lies in the window, the operand's elsewhere. -/
private theorem sc_scatter_apply {α : Type} (a b : BitVec 32) (A B : Nat) (ha : a.toInt = (A : Int)) (hb : b.toInt = (B : Int))
    (hA : A + 4096 ≤ 8192) (hB : B + 64 ≤ 128) (x : S8192x128.Idx → α) (upd : S4096x64.Idx → α)
    (k : Fin 8192) (j : Fin 128) :
    Host.scatter sc (fun _ b => b) x (startPair a b) upd (ix2 k j)
      = if h : (A ≤ k.val ∧ k.val < A + 4096) ∧ (B ≤ j.val ∧ j.val < B + 64)
        then upd (ix2 (⟨k.val - A, by omega⟩ : Fin 4096) (⟨j.val - B, by omega⟩ : Fin 64))
        else x (ix2 k j) := by
  by_cases h : (A ≤ k.val ∧ k.val < A + 4096) ∧ (B ≤ j.val ∧ j.val < B + 64)
  · rw [dif_pos h]
    refine scatter_set_hit sc x (startPair a b) upd (ix2 k j)
      (ix2 (⟨k.val - A, by omega⟩ : Fin 4096) (⟨j.val - B, by omega⟩ : Fin 64)) ?_ ?_
    · rw [sc_resultIdx a b A B ha hb hA hB]
      exact congrArg some (ix2_congr (by show A + (k.val - A) = k.val; omega) (by show B + (j.val - B) = j.val; omega))
    · intro j' hj'
      obtain ⟨r, c, rfl⟩ : ∃ (r : Fin 4096) (c : Fin 64), j' = ix2 r c := ⟨j' 0, j' 1, eq_ix2 j'⟩
      rw [sc_resultIdx a b A B ha hb hA hB] at hj'
      have hj'' := Option.some.inj hj'
      have e0 : A + r.val = k.val := congrArg (fun f : S8192x128.Idx => (f 0).val) hj''
      have e1 : B + c.val = j.val := congrArg (fun f : S8192x128.Idx => (f 1).val) hj''
      exact ix2_congr (by show r.val = k.val - A; omega) (by show c.val = j.val - B; omega)
  · rw [dif_neg h]
    refine scatter_set_miss sc x (startPair a b) upd (ix2 k j) ?_
    intro j' hj'
    obtain ⟨r, c, rfl⟩ : ∃ (r : Fin 4096) (c : Fin 64), j' = ix2 r c := ⟨j' 0, j' 1, eq_ix2 j'⟩
    rw [sc_resultIdx a b A B ha hb hA hB] at hj'
    have hj'' := Option.some.inj hj'
    have e0 : A + r.val = k.val := congrArg (fun f : S8192x128.Idx => (f 0).val) hj''
    have e1 : B + c.val = j.val := congrArg (fun f : S8192x128.Idx => (f 1).val) hj''
    have := r.isLt
    have := c.isLt
    exact h ⟨⟨by omega, by omega⟩, by omega, by omega⟩

/-! ## The pieces read at an index -/

/-- The transposed weight at `(r, c)` is the weight at `(c, r)`: the narrowing to bf16 is the identity on
    extended reals. -/
private theorem weightT_apply (W : (⟨S64x4096, .f32⟩ : BufTy).Contents (Elt Ideal)) (r : Fin 4096) (c : Fin 64) :
    (weightT (F := Ideal) W (ix2 r c) : EReal) = (W (ix2 c r) : EReal) := by
  unfold weightT
  rw [truncf_apply]
  exact transpose_apply [1, 0] W transposes_S64x4096_S4096x64_1_0 (ix2 r c) (ix2 c r) (fun b => match b with
    | ⟨0, _⟩ => rfl
    | ⟨1, _⟩ => rfl)

/-- The background the two scatters write into is zero everywhere. -/
private theorem zeros_apply (i : S8192x128.Idx) :
    (broadcastInDim S8192x128 ![] bcast_S_S8192x128 (constant (F := Ideal) S_ .bf16 0x0000#16) i : EReal) = 0 := by
  show Ideal.ofBits .bf16 0x0000#16 = 0
  simp [Ideal.ofBits, Ideal.ieee]

/-! ## The block-diagonal weight -/

theorem packedWeight_apply (W : (⟨S64x4096, .f32⟩ : BufTy).Contents (Elt Ideal)) (k : Fin 8192) (j : Fin 128) :
    (packedWeight (F := Ideal) W (ix2 k j) : EReal)
      = if k.val / 4096 = j.val / 64
        then (W (ix2 (⟨j.val % 64, Nat.mod_lt _ (by decide)⟩ : Fin 64) (⟨k.val % 4096, Nat.mod_lt _ (by decide)⟩ : Fin 4096)) : EReal)
        else 0 := by
  unfold packedWeight
  rw [sc_scatter_apply 4096#32 64#32 4096 64 (by decide) (by decide) (by omega) (by omega)]
  rw [sc_scatter_apply 0#32 0#32 0 0 (by decide) (by decide) (by omega) (by omega)]
  have hk := k.isLt
  have hj := j.isLt
  by_cases h2 : (4096 ≤ k.val ∧ k.val < 4096 + 4096) ∧ (64 ≤ j.val ∧ j.val < 64 + 64)
  · -- the lower-right quadrant: the second scatter's window
    rw [dif_pos h2, if_pos (by omega), weightT_apply]
    exact congrArg W (ix2_congr (by show j.val - 64 = j.val % 64; omega) (by show k.val - 4096 = k.val % 4096; omega))
  · rw [dif_neg h2]
    by_cases h1 : (0 ≤ k.val ∧ k.val < 0 + 4096) ∧ (0 ≤ j.val ∧ j.val < 0 + 64)
    · -- the upper-left quadrant: the first scatter's window
      rw [dif_pos h1, if_pos (by omega), weightT_apply]
      exact congrArg W (ix2_congr (by show j.val - 0 = j.val % 64; omega) (by show k.val - 0 = k.val % 4096; omega))
    · -- the two other quadrants: the zero background
      rw [dif_neg h1, if_neg (by omega)]
      exact zeros_apply _

end Cert.Router

end
-- ==== Proof.SegmentOnes.lean ====
import proofs.«154467_g1906965480197_cont_8to1_1390_18_alg».proof.Proof.Terms
import Idealize.ShloMosaic.Lib.ValueIdx
import Idealize.ShloMosaic.Lib.Pipeline.Value
import Idealize.ShloMosaic.PureOps.Ideal

/-!
# The matrix of ones on the two diagonal blocks, read at an index

Entry `(k, j)` is one when lanes `k` and `j` belong to the same token (`k / 64 = j / 64`) and zero otherwise.
-/

noncomputable section

namespace Cert.Router

open Idealize.ShloMosaic Idealize.ShloMosaic.ValueIdx Cert.KernelIdeal Cert.KernelIdeal.Gen

/-- Lane `i` belongs to token `i / 64`: for lanes below 128 the dividend and the divisor 64 are both
    non-negative, so no correction is subtracted and the truncated quotient is the floor quotient. -/
theorem laneToken_apply : ∀ i : Fin 128, laneToken (ix1 i) = BitVec.ofNat 32 (i.val / 64) := by
  decide +kernel

/-- Two 32-bit words of numbers below 2 compare equal exactly when the numbers are equal. -/
private theorem cmpi_eq_small : ∀ a b : Fin 2,
    (IntOp.cmpi .eq (BitVec.ofNat 32 a.val) (BitVec.ofNat 32 b.val)).toNat = if a.val = b.val then 1 else 0 := by
  decide

/-- The lane tokens as a column, copied along every row: entry `(k, j)` is row lane `k`'s token. -/
private theorem rowTokens_apply (k j : Fin 128) :
    broadcastInDim S128x128 ![0, 1] bcast_S128x1_S128x128_0_1
        (broadcastInDim S128x1 ![0] bcast_S128_S128x1_0 laneToken) (ix2 k j) = laneToken (ix1 k) := by
  refine (broadcastInDim_apply _ bcast_S128x1_S128x128_0_1 _ (ix2 k j) (ix2 k (0 : Fin 1)) (fun a => match a with
    | ⟨0, _⟩ => by show k.val = if (128 : Nat) = 1 then 0 else k.val; rw [if_neg (by decide)]
    | ⟨1, _⟩ => by show 0 = if (1 : Nat) = 1 then 0 else j.val; rw [if_pos rfl])).trans ?_
  exact broadcastInDim_apply _ bcast_S128_S128x1_0 laneToken (ix2 k (0 : Fin 1)) (ix1 k) (fun a => match a with
    | ⟨0, _⟩ => by show k.val = if (128 : Nat) = 1 then 0 else k.val; rw [if_neg (by decide)])

/-- The lane tokens as a row, copied down every column: entry `(k, j)` is column lane `j`'s token. -/
private theorem colTokens_apply (k j : Fin 128) :
    broadcastInDim S128x128 ![0, 1] bcast_S1x128_S128x128_0_1
        (broadcastInDim S1x128 ![1] bcast_S128_S1x128_1 laneToken) (ix2 k j) = laneToken (ix1 j) := by
  refine (broadcastInDim_apply _ bcast_S1x128_S128x128_0_1 _ (ix2 k j) (ix2 (0 : Fin 1) j) (fun a => match a with
    | ⟨0, _⟩ => by show 0 = if (1 : Nat) = 1 then 0 else k.val; rw [if_pos rfl]
    | ⟨1, _⟩ => by show j.val = if (128 : Nat) = 1 then 0 else j.val; rw [if_neg (by decide)])).trans ?_
  exact broadcastInDim_apply _ bcast_S128_S1x128_1 laneToken (ix2 (0 : Fin 1) j) (ix1 j) (fun a => match a with
    | ⟨0, _⟩ => by show j.val = if (128 : Nat) = 1 then 0 else j.val; rw [if_neg (by decide)])

theorem segmentOnes_apply (k j : Fin 128) :
    (segmentOnes (F := Ideal) (ix2 k j) : EReal) = (((if k.val / 64 = j.val / 64 then 1 else 0 : ℝ) : ℝ) : EReal) := by
  have hk : k.val / 64 < 2 := by have := k.isLt; omega
  have hj : j.val / 64 < 2 := by have := j.isLt; omega
  unfold segmentOnes
  -- the entry is the one-bit comparison of the two broadcasts, read as a natural number, then as a real
  show (((IntOp.cmpi .eq
      (broadcastInDim S128x128 ![0, 1] bcast_S128x1_S128x128_0_1
        (broadcastInDim S128x1 ![0] bcast_S128_S128x1_0 laneToken) (ix2 k j))
      (broadcastInDim S128x128 ![0, 1] bcast_S1x128_S128x128_0_1
        (broadcastInDim S1x128 ![1] bcast_S128_S1x128_1 laneToken) (ix2 k j))).toNat : ℝ) : EReal) = _
  rw [rowTokens_apply, colTokens_apply, laneToken_apply, laneToken_apply]
  -- both quotients are below 2, so the words are equal exactly when the quotients are
  have h := cmpi_eq_small ⟨k.val / 64, hk⟩ ⟨j.val / 64, hj⟩
  simp only at h
  rw [h]
  by_cases hq : k.val / 64 = j.val / 64
  · rw [if_pos hq, if_pos hq]; norm_num
  · rw [if_neg hq, if_neg hq]; norm_num

end Cert.Router

end
-- ==== Proof.Payload.lean ====
import proofs.«154467_g1906965480197_cont_8to1_1390_18_alg».proof.Proof.Gen.KernelIdeal.Skeleton
import proofs.«154467_g1906965480197_cont_8to1_1390_18_alg».proof.Proof.Softmax
import Idealize.ShloMosaic.Lib.ValueIdx
import Idealize.ShloMosaic.Lib.ValueLayout
import Idealize.ShloMosaic.Lib.Pipeline.Value
import Idealize.ShloMosaic.PureOps.Ideal.Laws

/-!
# What the kernel body stores, at an index

For blocks holding reals — row `p` of the token block the two tokens `2 r`, `2 r + 1`, the weight block
block-diagonal, the bias block the bias twice, the last block the ones of the two diagonal blocks — lane `q`
of row `p` of the stored block is the softmax of token `2 r + q / 64` at expert `q % 64`: the row maximum the
body subtracts is a real, and any real shift cancels in the quotient.
-/

noncomputable section

namespace Cert.Router

open Idealize.ShloMosaic Idealize.ShloMosaic.ValueIdx Cert.KernelIdeal Cert.KernelIdeal.Gen

/-! ## A column kept as a unit axis

The cast `[a] → [a, 1]` and the broadcast `[a, 1] → [a, b]`, read at coordinates. -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products at an index

Each product contracts the left operand's second axis with the right operand's first, so entry `(p, j)` is the
sum over the one contraction coordinate `k` of the left operand at `(p, k)` times the right at `(k, j)`. -/

theorem lhs_logits_0 (i : S512x128.Idx) (q : dot_S512x8192_S8192x128_S512x128_1_0_0_1_n_n.contr.Idx) :
    (dot_S512x8192_S8192x128_S512x128_1_0_0_1_n_n.lhsIdx i q 0).val = (i 0).val := by
  unfold DotDims.lhsIdx
  rw [dif_neg (show ¬(0 : Fin S512x8192.rank) ∈ dot_S512x8192_S8192x128_S512x128_1_0_0_1_n_n.lhsBatch by decide), dif_pos (show (0 : Fin S512x8192.rank) ∈ dot_S512x8192_S8192x128_S512x128_1_0_0_1_n_n.lhsNonContracting by decide)]
  rfl
theorem lhs_logits_1 (i : S512x128.Idx) (q : dot_S512x8192_S8192x128_S512x128_1_0_0_1_n_n.contr.Idx) :
    (dot_S512x8192_S8192x128_S512x128_1_0_0_1_n_n.lhsIdx i q 1).val = (q ⟨0, by decide⟩).val :=
  dot_S512x8192_S8192x128_S512x128_1_0_0_1_n_n.lhsIdx_val_of_single rfl i q
theorem rhs_logits_0 (i : S512x128.Idx) (q : dot_S512x8192_S8192x128_S512x128_1_0_0_1_n_n.contr.Idx) :
    (dot_S512x8192_S8192x128_S512x128_1_0_0_1_n_n.rhsIdx i q 0).val = (q ⟨0, by decide⟩).val :=
  dot_S512x8192_S8192x128_S512x128_1_0_0_1_n_n.rhsIdx_val_of_single rfl i q
theorem rhs_logits_1 (i : S512x128.Idx) (q : dot_S512x8192_S8192x128_S512x128_1_0_0_1_n_n.contr.Idx) :
    (dot_S512x8192_S8192x128_S512x128_1_0_0_1_n_n.rhsIdx i q 1).val = (i 1).val := by
  unfold DotDims.rhsIdx
  rw [dif_neg (show ¬(1 : Fin S8192x128.rank) ∈ dot_S512x8192_S8192x128_S512x128_1_0_0_1_n_n.rhsBatch by decide), dif_pos (show (1 : Fin S8192x128.rank) ∈ dot_S512x8192_S8192x128_S512x128_1_0_0_1_n_n.rhsNonContracting by decide)]
  rfl

/-- The packed tokens against the block-diagonal weight, into zero: a sum over the 8192 packed features. -/
theorem logits_apply (A : FVec Ideal S512x8192 .bf16) (B : FVec Ideal S8192x128 .bf16) (p : Fin 512) (j : Fin 128) :
    matmul dot_S512x8192_S8192x128_S512x128_1_0_0_1_n_n none A B (constant (F := Ideal) S512x128 .f32 0x00000000#32) (ix2 p j)
      = ∑ k : Fin 8192, A (ix2 p k) * B (ix2 k j) := by
  simp only [matmul]
  rw [Ideal.matmul_constant_zero_apply, ← Equiv.sum_comp (ValueIdx.contrEquiv1 dot_S512x8192_S8192x128_S512x128_1_0_0_1_n_n 8192 rfl rfl).symm]
  refine Finset.sum_congr rfl fun k _ => ?_
  have hk := ValueIdx.contrEquiv1_symm_val dot_S512x8192_S8192x128_S512x128_1_0_0_1_n_n 8192 rfl rfl k
  have el : dot_S512x8192_S8192x128_S512x128_1_0_0_1_n_n.lhsIdx (ix2 p j) ((ValueIdx.contrEquiv1 dot_S512x8192_S8192x128_S512x128_1_0_0_1_n_n 8192 rfl rfl).symm k) = ix2 p k := funext fun a => Fin.ext (by
    match a with
    | ⟨0, _⟩ => exact lhs_logits_0 _ _
    | ⟨1, _⟩ => exact (lhs_logits_1 _ _).trans hk)
  have er : dot_S512x8192_S8192x128_S512x128_1_0_0_1_n_n.rhsIdx (ix2 p j) ((ValueIdx.contrEquiv1 dot_S512x8192_S8192x128_S512x128_1_0_0_1_n_n 8192 rfl rfl).symm k) = ix2 k j := funext fun a => Fin.ext (by
    match a with
    | ⟨0, _⟩ => exact (rhs_logits_0 _ _).trans hk
    | ⟨1, _⟩ => exact rhs_logits_1 _ _)
  rw [el, er]

theorem lhs_segsum_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_segsum_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_segsum_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_segsum_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The exponentials against the matrix of ones on two diagonal blocks, into zero: a sum over the 128 lanes. -/
theorem segsum_apply (A : FVec Ideal S512x128 .f32) (B : FVec Ideal S128x128 .f32) (p : Fin 512) (j : Fin 128) :
    matmul dot_S512x128_S128x128_S512x128_1_0_0_1_n_n none A B (constant (F := Ideal) S512x128 .f32 0x00000000#32) (ix2 p j)
      = ∑ k : Fin 128, A (ix2 p k) * B (ix2 k j) := by
  simp only [matmul]
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p j) ((ValueIdx.contrEquiv1 dot_S512x128_S128x128_S512x128_1_0_0_1_n_n 128 rfl rfl).symm k) = ix2 p k := funext fun a => Fin.ext (by
    match a with
    | ⟨0, _⟩ => exact lhs_segsum_0 _ _
    | ⟨1, _⟩ => exact (lhs_segsum_1 _ _).trans hk)
  have er : dot_S512x128_S128x128_S512x128_1_0_0_1_n_n.rhsIdx (ix2 p j) ((ValueIdx.contrEquiv1 dot_S512x128_S128x128_S512x128_1_0_0_1_n_n 128 rfl rfl).symm k) = ix2 k j := funext fun a => Fin.ext (by
    match a with
    | ⟨0, _⟩ => exact (rhs_segsum_0 _ _).trans hk
    | ⟨1, _⟩ => exact rhs_segsum_1 _ _)
  rw [el, er]

/-! ## The row maximum -/

/-- The maximum over a row's 128 lanes, folded from `-∞`. -/
theorem rowmax_apply (L : FVec Ideal S512x128 .f32) (p : Fin 512) :
    multiReduction (F := Ideal) .maximumf [1] S512 L 0xFF800000#32 reduces_S512x128_S512 (.inl rfl) rfl (ix1 p)
      = (Finset.univ : Finset (Fin 128)).fold max (⊥ : EReal) (fun j => L (ix2 p j)) := by
  refine (Ideal.multiReduction_maximumf_single L 0xFF800000#32 reduces_S512x128_S512 (.inl rfl) rfl (ix1 p)).trans ?_
  have hbot : FloatOps.ofBits (F := Ideal) .f32 0xFF800000#32 = (⊥ : EReal) := by
    simp [Ideal.ofBits, Ideal.ieee]
  have hrow : (L ∘ reduces_S512x128_S512.lift (ix1 p)) = fun j : Fin 128 => L (ix2 p j) :=
    funext fun k => congrArg L (funext fun a => Fin.ext (by match a with | ⟨0, _⟩ => rfl | ⟨1, _⟩ => rfl))
  rw [hbot, hrow]
  rfl

/-! ## The stages of the body, at row `p` -/

/-- The logits: lane `j` of row `p` of the product plus the bias row is token `2 r + j / 64`'s logit for expert
    `j % 64`. The narrowing of the tokens is the identity on the reals, and the three casts are to the same shape. -/
theorem logits_block_apply (v0 : FVec Ideal S512x8192 .f32) (v3 : FVec Ideal S8192x128 .bf16) (v6 : FVec Ideal S1x128 .f32)
    (x w : ℕ → ℕ → ℝ) (b : ℕ → ℝ) (r : ℕ) (p : Fin 512) (j : Fin 128)
    (h0 : ∀ kk : Fin 8192, v0 (ix2 p kk) = ((x (2 * r + kk.val / 4096) (kk.val % 4096) : ℝ) : EReal))
    (h3 : ∀ (kk : Fin 8192) (j : Fin 128),
      v3 (ix2 kk j) = (((if kk.val / 4096 = j.val / 64 then w (j.val % 64) (kk.val % 4096) else 0 : ℝ) : ℝ) : EReal))
    (h6 : ∀ j : Fin 128, v6 (ix2 (0 : Fin 1) j) = ((b (j.val % 64) : ℝ) : EReal)) :
    (addf (matmul dot_S512x8192_S8192x128_S512x128_1_0_0_1_n_n none (truncf .bf16 (shapeCast S512x8192 v0 shapeCasts_S512x8192_S512x8192) bitsLt_bf16_f32)
        (shapeCast S8192x128 v3 shapeCasts_S8192x128_S8192x128) (constant (F := Ideal) S512x128 .f32 0x00000000#32))
      (broadcastTo S512x128 (shapeCast S1x128 v6 shapeCasts_S1x128_S1x128) broadcasts_S1x128_S512x128)) (ix2 p j)
      = ((logit x w b (2 * r + j.val / 64) (j.val % 64) : ℝ) : EReal) := by
  rw [addf_apply, logits_apply, shapeCast_self, shapeCast_self, shapeCast_self, broadcastTo_1b_ab_apply, h6]
  simp only [truncf_apply, h0, h3, ← EReal.coe_mul]
  rw [coe_sum, ← EReal.coe_add,
    Fin.sum_univ_eq_sum_range
      (fun kk => x (2 * r + kk / 4096) (kk % 4096) * (if kk / 4096 = j.val / 64 then w (j.val % 64) (kk % 4096) else 0)) 8192,
    packed_logit x w b r j.val j.isLt]

/-- The shift: if row `p` of a block holds reals, the row's maximum, kept as a column and broadcast back over the
    lanes, is one real in every lane of row `p`. -/
theorem shift_real (L : FVec Ideal S512x128 .f32) (ℓ : ℕ → ℝ) (p : Fin 512)
    (hL : ∀ j : Fin 128, L (ix2 p j) = ((ℓ j.val : ℝ) : EReal)) :
    ∃ c : ℝ, ∀ j : Fin 128,
      (broadcastTo S512x128 (shapeCast S512x1 (multiReduction (F := Ideal) .maximumf [1] S512 L 0xFF800000#32
        reduces_S512x128_S512 (.inl rfl) rfl) shapeCasts_S512_S512x1) broadcasts_S512x1_S512x128) (ix2 p j) = ((c : ℝ) : EReal) := by
  obtain ⟨c, hc⟩ := fold_max_coe (Finset.univ : Finset (Fin 128)) Finset.univ_nonempty (fun j => ℓ j.val)
  refine ⟨c, fun j => ?_⟩
  rw [broadcastTo_a1_ab_apply, shapeCast_a_a1_apply, rowmax_apply]
  simp only [hL]
  exact hc

/-- The quotient: if row `p` of `L` holds the reals `ℓ` and row `p` of `M` one real `c`, then lane `q` of row `p`
    of `exp (L - M)` over its product with the ones of the two diagonal blocks is `exp (ℓ q)` over the sum of
    `exp ∘ ℓ` on lane `q`'s own half: the shift is gone. -/
theorem quotient_apply (L M : FVec Ideal S512x128 .f32) (v15 : FVec Ideal S128x128 .f32) (ℓ : ℕ → ℝ) (c : ℝ)
    (p : Fin 512) (q : Fin 128)
    (hL : ∀ j : Fin 128, L (ix2 p j) = ((ℓ j.val : ℝ) : EReal))
    (hM : ∀ j : Fin 128, M (ix2 p j) = ((c : ℝ) : EReal))
    (h15 : ∀ k j : Fin 128, v15 (ix2 k j) = (((if k.val / 64 = j.val / 64 then 1 else 0 : ℝ) : ℝ) : EReal)) :
    divf (exp (subf L M))
        (matmul dot_S512x128_S128x128_S512x128_1_0_0_1_n_n none (exp (subf L M)) (shapeCast S128x128 v15 shapeCasts_S128x128_S128x128)
          (constant (F := Ideal) S512x128 .f32 0x00000000#32)) (ix2 p q)
      = ((Real.exp (ℓ q.val) / ∑ e ∈ Finset.range 64, Real.exp (ℓ (q.val / 64 * 64 + e)) : ℝ) : EReal) := by
  have hE : ∀ k : Fin 128, exp (subf L M) (ix2 p k) = ((Real.exp (ℓ k.val - c) : ℝ) : EReal) := fun k => by
    show FloatOps.exp (FloatOps.subf (L (ix2 p k)) (M (ix2 p k))) = _
    rw [hL, hM, Ideal.subf_def, Ideal.exp_def, ← EReal.coe_sub, Ideal.exp_coe]
  rw [divf_apply, segsum_apply, hE, shapeCast_self]
  simp only [hE, h15, ← EReal.coe_mul]
  rw [coe_sum,
    Fin.sum_univ_eq_sum_range (fun k => Real.exp (ℓ k - c) * (if k / 64 = q.val / 64 then (1 : ℝ) else 0)) 128,
    segment_sum (fun k => Real.exp (ℓ k - c)) q.val q.isLt]
  have hpos : (0 : ℝ) < ∑ e ∈ Finset.range 64, Real.exp (ℓ (q.val / 64 * 64 + e) - c) :=
    Finset.sum_pos (fun _ _ => Real.exp_pos _) ⟨0, Finset.mem_range.2 (by decide)⟩
  rw [Ideal.div_coe (ne_of_gt hpos), ← EReal.coe_mul, mul_one_div]
  have hq : q.val / 64 * 64 + q.val % 64 = q.val := by omega
  have hs := exp_shift_div (Finset.range 64) (fun e => ℓ (q.val / 64 * 64 + e)) c (q.val % 64)
  simp only [hq] at hs
  rw [hs]

theorem payload_apply (v0 : Vec Ideal S512x8192 .f32) (v3 : Vec Ideal S8192x128 .bf16) (v6 : Vec Ideal S1x128 .f32)
    (v15 : Vec Ideal S128x128 .f32) (x w : ℕ → ℕ → ℝ) (b : ℕ → ℝ) (r : ℕ) (p : Fin 512) (q : Fin 128)
    (h0 : ∀ kk : Fin 8192, (v0 (ix2 p kk) : EReal) = ((x (2 * r + kk.val / 4096) (kk.val % 4096) : ℝ) : EReal))
    (h3 : ∀ (kk : Fin 8192) (j : Fin 128),
      (v3 (ix2 kk j) : EReal) = (((if kk.val / 4096 = j.val / 64 then w (j.val % 64) (kk.val % 4096) else 0 : ℝ) : ℝ) : EReal))
    (h6 : ∀ j : Fin 128, (v6 (ix2 (0 : Fin 1) j) : EReal) = ((b (j.val % 64) : ℝ) : EReal))
    (h15 : ∀ k j : Fin 128, (v15 (ix2 k j) : EReal) = (((if k.val / 64 = j.val / 64 then 1 else 0 : ℝ) : ℝ) : EReal)) :
    (k0_pay1 (F := Ideal) v0 v3 v6 v15 (ix2 p q) : EReal)
      = ((soft (logit x w b (2 * r + q.val / 64)) (q.val % 64) : ℝ) : EReal) := by
  have hL : ∀ j : Fin 128, (addf (matmul dot_S512x8192_S8192x128_S512x128_1_0_0_1_n_n none (truncf .bf16 (shapeCast S512x8192 v0 shapeCasts_S512x8192_S512x8192) bitsLt_bf16_f32)
        (shapeCast S8192x128 v3 shapeCasts_S8192x128_S8192x128) (constant (F := Ideal) S512x128 .f32 0x00000000#32))
      (broadcastTo S512x128 (shapeCast S1x128 v6 shapeCasts_S1x128_S1x128) broadcasts_S1x128_S512x128)) (ix2 p j)
      = (((fun n : ℕ => logit x w b (2 * r + n / 64) (n % 64)) j.val : ℝ) : EReal) :=
    fun j => logits_block_apply v0 v3 v6 x w b r p j h0 h3 h6
  obtain ⟨c, hc⟩ := shift_real (addf (matmul dot_S512x8192_S8192x128_S512x128_1_0_0_1_n_n none (truncf .bf16 (shapeCast S512x8192 v0 shapeCasts_S512x8192_S512x8192) bitsLt_bf16_f32)
        (shapeCast S8192x128 v3 shapeCasts_S8192x128_S8192x128) (constant (F := Ideal) S512x128 .f32 0x00000000#32))
      (broadcastTo S512x128 (shapeCast S1x128 v6 shapeCasts_S1x128_S1x128) broadcasts_S1x128_S512x128)) (fun n : ℕ => logit x w b (2 * r + n / 64) (n % 64)) p hL
  refine (quotient_apply (addf (matmul dot_S512x8192_S8192x128_S512x128_1_0_0_1_n_n none (truncf .bf16 (shapeCast S512x8192 v0 shapeCasts_S512x8192_S512x8192) bitsLt_bf16_f32)
        (shapeCast S8192x128 v3 shapeCasts_S8192x128_S8192x128) (constant (F := Ideal) S512x128 .f32 0x00000000#32))
      (broadcastTo S512x128 (shapeCast S1x128 v6 shapeCasts_S1x128_S1x128) broadcasts_S1x128_S512x128))
    (broadcastTo S512x128 (shapeCast S512x1 (multiReduction (F := Ideal) .maximumf [1] S512 (addf (matmul dot_S512x8192_S8192x128_S512x128_1_0_0_1_n_n none (truncf .bf16 (shapeCast S512x8192 v0 shapeCasts_S512x8192_S512x8192) bitsLt_bf16_f32)
        (shapeCast S8192x128 v3 shapeCasts_S8192x128_S8192x128) (constant (F := Ideal) S512x128 .f32 0x00000000#32))
      (broadcastTo S512x128 (shapeCast S1x128 v6 shapeCasts_S1x128_S1x128) broadcasts_S1x128_S512x128)) 0xFF800000#32
        reduces_S512x128_S512 (.inl rfl) rfl) shapeCasts_S512_S512x1) broadcasts_S512x1_S512x128) v15 (fun n : ℕ => logit x w b (2 * r + n / 64) (n % 64)) c p q hL hc h15).trans (congrArg _ ?_)
  unfold soft
  refine congrArg _ (Finset.sum_congr rfl fun e he => ?_)
  have he' := Finset.mem_range.1 he
  have e1 : (q.val / 64 * 64 + e) / 64 = q.val / 64 := by omega
  have e2 : (q.val / 64 * 64 + e) % 64 = e := by omega
  show Real.exp (logit x w b (2 * r + (q.val / 64 * 64 + e) / 64) ((q.val / 64 * 64 + e) % 64)) = _
  rw [e1, e2]

end Cert.Router

end
-- ==== Proof.KernelValue.lean ====
import proofs.«154467_g1906965480197_cont_8to1_1390_18_alg».proof.Proof.Gen.KernelIdeal.Frame
import proofs.«154467_g1906965480197_cont_8to1_1390_18_alg».proof.Proof.Entry
import proofs.«154467_g1906965480197_cont_8to1_1390_18_alg».proof.Proof.Layout
import proofs.«154467_g1906965480197_cont_8to1_1390_18_alg».proof.Proof.PackedWeight
import proofs.«154467_g1906965480197_cont_8to1_1390_18_alg».proof.Proof.SegmentOnes
import proofs.«154467_g1906965480197_cont_8to1_1390_18_alg».proof.Proof.Payload
import proofs.«154467_g1906965480197_cont_8to1_1390_18_alg».proof.Proof.Softmax
import Idealize.ShloMosaic.Lib.Pipeline.Value
import Idealize.ShloMosaic.Lib.StableHlo.Run

/-!
# The kernel's result array

The grid has 32 points; point `t` stages rows `[512 t, 512 t + 512)` of the packed tokens and writes back the same
rows of the packed result, the weight, bias and ones blocks being the whole arrays at every point. So row `p` of
point `t`'s block is packed row `512 t + p`, which holds tokens `2 (512 t + p)` and `2 (512 t + p) + 1`; by the
payload's value the packed result array is, at `(r, q)`, the softmax of token `2 r + q / 64` at expert `q % 64`;
the blocks tile the array; and the reshape after the region reads token `t`, expert `e` from lane `64 (t % 2) + e`
of row `t / 2`, which is the softmax of token `t` at expert `e`.
-/

set_option maxRecDepth 16384

noncomputable section

namespace Cert.Router

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)
variable (x w : ℕ → ℕ → ℝ) (b : ℕ → ℝ)

/-- The packed result: lane `q` of row `r` is the softmax of token `2 r + q / 64` at expert `q % 64`. -/
def packedG : S16384x128.Idx → EReal :=
  fun i => ((soft (logit x w b (2 * (i 0).val + (i 1).val / 64)) ((i 1).val % 64) : ℝ) : EReal)

theorem origin2 : (![0, 0] : Fin 2 → Nat) = fun _ => 0 := funext fun a => by fin_cases a <;> rfl

/-- The printed index maps over the grid: the token and result windows move down one block per point, the other
    three stay at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-! ## The blocks the body loads -/

/-- Row `p` of point `t`'s token block is packed row `512 t + p`. -/
theorem tokens_block (c : Dev nD) (t : Fin cfg0.N) (p : Fin 512) (kk : Fin 8192) :
    iblk m c 0 t (ix2 p kk)
      = V m c main_v21 (ix2 (⟨512 * t.val + p.val, by have := point_lt t; have := p.isLt; omega⟩ : Fin 16384) kk) := by
  obtain ⟨e0, e1, -⟩ := index_facts t
  show V m c main_v21 (((cfg0.win 0).blk t).view.emb (ix2 p kk)) = _
  refine congrArg (V m c main_v21) (funext fun a => Fin.ext ?_)
  match a with
  | ⟨0, _⟩ => show win0_0.index t (0 : Fin 2) * 512 + 1 * p.val = 512 * t.val + p.val; omega
  | ⟨1, _⟩ => show win0_0.index t (1 : Fin 2) * 8192 + 1 * kk.val = kk.val; omega

/-- The weight block is the whole block-diagonal weight. -/
theorem weight_block (c : Dev nD) (t : Fin cfg0.N) (kk : Fin 8192) (j : Fin 128) :
    iblk m c 1 t (ix2 kk j) = V m c main_v10 (ix2 kk j) := by
  obtain ⟨-, -, e0, e1, -⟩ := index_facts t
  show V m c main_v10 (((cfg0.win 1).blk t).view.emb (ix2 kk j)) = _
  refine congrArg (V m c main_v10) (funext fun a => Fin.ext ?_)
  match a with
  | ⟨0, _⟩ => show win0_1.index t (0 : Fin 2) * 8192 + 1 * kk.val = kk.val; omega
  | ⟨1, _⟩ => show win0_1.index t (1 : Fin 2) * 128 + 1 * j.val = j.val; omega

/-- The bias block is the whole doubled bias. -/
theorem bias_block (c : Dev nD) (t : Fin cfg0.N) (j : Fin 128) :
    iblk m c 2 t (ix2 (0 : Fin 1) j) = V m c main_v12 (ix2 (0 : Fin 1) j) := by
  obtain ⟨-, -, -, -, e0, e1, -⟩ := index_facts t
  show V m c main_v12 (((cfg0.win 2).blk t).view.emb (ix2 (0 : Fin 1) j)) = _
  refine congrArg (V m c main_v12) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

/-- The ones block is the whole matrix of ones on the diagonal blocks. -/
theorem ones_block (c : Dev nD) (t : Fin cfg0.N) (k j : Fin 128) :
    iblk m c 3 t (ix2 k j) = V m c main_v20 (ix2 k j) := by
  obtain ⟨-, -, -, -, -, -, e0, e1, -⟩ := index_facts t
  show V m c main_v20 (((cfg0.win 3).blk t).view.emb (ix2 k j)) = _
  refine congrArg (V m c main_v20) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-! ## What a point writes back -/

variable (c : Dev nD)
variable (hX : ∀ i : S32768x4096.Idx, (m ((c : Thread nD τ).loc main_arg0) i : EReal) = ((x (i 0).val (i 1).val : ℝ) : EReal))
variable (hW : ∀ i : S64x4096.Idx, (m ((c : Thread nD τ).loc main_arg1) i : EReal) = ((w (i 0).val (i 1).val : ℝ) : EReal))
variable (hB : ∀ i : S64.Idx, (m ((c : Thread nD τ).loc main_arg2) i : EReal) = ((b (i 0).val : ℝ) : EReal))

include hX hW hB in
/-- Point `t` writes back block `t` of the packed result. -/
theorem flushed_eq (t : Fin cfg0.N) :
    (dats m 0 c).flushed 4 t = ((cfg0.win 4).blk t).view.read (Elt Ideal) (packedG x w b) := by
  show (cfg0.win 4).cut (grid0.coords t) ((dats m 0 c).after 4 t) = _
  rw [after0_4]
  unfold out0_4
  rw [View.canon_unit_zero origin2]
  simp only [View.ld_unit_zero (S := S512x8192) origin2, View.ld_unit_zero (S := S8192x128) origin2,
    View.ld_unit_zero (S := S1x128) origin2, View.ld_unit_zero (S := S128x128) origin2]
  obtain ⟨-, -, -, -, -, -, -, -, e0, e1⟩ := index_facts t
  funext j
  obtain ⟨p, q, rfl⟩ : ∃ (p : Fin 512) (q : Fin 128), j = ix2 p q := ⟨j 0, j 1, eq_ix2 j⟩
  have hemb : ((cfg0.win 4).blk t).view.emb (ix2 p q)
      = ix2 (⟨512 * t.val + p.val, by have := point_lt t; have := p.isLt; omega⟩ : Fin 16384) q := by
    funext a; apply Fin.ext
    match a with
    | ⟨0, _⟩ => show win0_4.index t (0 : Fin 2) * 512 + 1 * p.val = 512 * t.val + p.val; omega
    | ⟨1, _⟩ => show win0_4.index t (1 : Fin 2) * 128 + 1 * q.val = q.val; omega
  show k0_pay1 (F := Ideal) (iblk m c 0 t) (iblk m c 1 t) (iblk m c 2 t) (iblk m c 3 t) (ix2 p q)
    = packedG x w b (((cfg0.win 4).blk t).view.emb (ix2 p q))
  rw [hemb]
  refine (payload_apply (iblk m c 0 t) (iblk m c 1 t) (iblk m c 2 t) (iblk m c 3 t) x w b (512 * t.val + p.val) p q
    ?_ ?_ ?_ ?_).trans rfl
  · intro kk
    rw [tokens_block, entry_tokens, pairedTokens_apply, hX]
  · intro kk j
    rw [weight_block, entry_weight, packedWeight_apply]
    split
    · rw [hW]
    · exact EReal.coe_zero.symm
  · intro j
    rw [bias_block, entry_bias, pairedBias_apply, hB]
  · intro k j
    rw [ones_block, entry_ones, segmentOnes_apply]

/-! ## The blocks tile the array -/

theorem mem_block (t : Fin cfg0.N) (i : S16384x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v22).slice (win0_4.rect t)).set ↔ _
  rw [View.set_slice_whole, Rect.mem_set_unit]
  exact Iff.rfl

/-- Row `r` of the packed result lies in the block of point `r / 512`. -/
theorem cover (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  let t : Fin cfg0.N := ⟨(i 0).val / 512, by rw [show cfg0.N = 32 from N_0]; omega⟩
  obtain ⟨-, -, -, -, -, -, -, -, e0, e1⟩ := index_facts t
  have ht : t.val = (i 0).val / 512 := rfl
  refine ⟨t, flush0_4 t, (mem_block t i).2 fun a => ?_⟩
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    omega

include hX hW hB in
/-- The packed result array after the run. -/
theorem final : (dats m 0 c).arrAt 4 cfg0.N = packedG x w b :=
  (dats m 0 c).arrAt_eq_of_cover 4 (packedG x w b) (fun t _ => flushed_eq m x w b c hX hW hB t) cover

/-! ## The reshape after the region, and the run -/

include hX hW hB in
/-- The result buffer after the reshape that follows the region: token `t`, expert `e` is read from lane
    `64 (t % 2) + e` of packed row `t / 2`, which holds the softmax of token `2 (t / 2) + t % 2 = t` at expert `e`. -/
theorem tail_eq :
    Pipeline.afterTail₀ cfgs (dats m) 0 (V0 m) [hostOps1] c main_v23 = G x w b := by
  have hA : Pipeline.withArrays (cfgs 0).spec c (V0 m c) (fun w' => (dats m 0 c).arrAt w' (cfgs 0).N)
      (Proc.devRef .tc main_v22) = packedG x w b :=
    (Pipeline.withArrays_arr spec0 launch0.win.arr_inj c _ _ 4).trans (final m x w b c hX hW hB)
  unfold Pipeline.afterTail₀
  show StableHlo.after hostOps1 _ (Proc.devRef .tc main_v23) = _
  after_results
  funext i
  obtain ⟨t, e, rfl⟩ : ∃ (t : Fin 32768) (e : Fin 64), i = ix2 t e := ⟨i 0, i 1, eq_ix2 i⟩
  show shapeCast S32768x64 (Pipeline.withArrays (cfgs 0).spec c (V0 m c) (fun w' => (dats m 0 c).arrAt w' (cfgs 0).N)
      (Proc.devRef .tc main_v22)) shapeCasts_S16384x128_S32768x64 (ix2 t e) = _
  rw [hA]
  refine (unpaired_apply (F := Ideal) (packedG x w b) t e).trans ?_
  show ((soft (logit x w b (2 * (t.val / 2) + (64 * (t.val % 2) + e.val) / 64)) ((64 * (t.val % 2) + e.val) % 64) : ℝ) : EReal)
    = ((soft (logit x w b t.val) e.val : ℝ) : EReal)
  have h1 : 2 * (t.val / 2) + (64 * (t.val % 2) + e.val) / 64 = t.val := by have := e.isLt; omega
  have h2 : (64 * (t.val % 2) + e.val) % 64 = e.val := by have := e.isLt; omega
  rw [h1, h2]

end Cert.Router

namespace Cert.Router

open Cert.KernelIdeal Cert.KernelIdeal.Gen Idealize.ShloMosaic Idealize.ShloMosaic.TcCoe Idealize.SL.Sem

/-- The kernel's run at real arguments: every weakly fair execution ends with the result buffer at the softmax of
    the logits, device by device, and the arguments unchanged. -/
theorem kernel_run (m : (ℓ : Loc nD τ sig) → Buf (Elt Ideal) ℓ) (ρ : Dev nD → PrngReg)
    (x w : Dev nD → ℕ → ℕ → ℝ) (b : Dev nD → ℕ → ℝ)
    (hX : ∀ (c : Dev nD) (i : S32768x4096.Idx), (m ((c : Thread nD τ).loc main_arg0) i : EReal) = ((x c (i 0).val (i 1).val : ℝ) : EReal))
    (hW : ∀ (c : Dev nD) (i : S64x4096.Idx), (m ((c : Thread nD τ).loc main_arg1) i : EReal) = ((w c (i 0).val (i 1).val : ℝ) : EReal))
    (hB : ∀ (c : Dev nD) (i : S64.Idx), (m ((c : Thread nD τ).loc main_arg2) i : EReal) = ((b c (i 0).val : ℝ) : EReal)) :
    θ_run (defs (F := Ideal)) (onTc (τ := τ) (main (F := Ideal))) ⟨m, fun _ => 0, ρ⟩ (fun r => ∀ c : Dev nD,
      r.2.mem ((c.tc : Thread nD τ).loc main_v23) = G (x c) (w c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of main_v23 (by decide) (by decide))).trans
        (tail_eq m (x c) (w c) (b c) c (hX c) (hW c) (hB c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Router

end
-- ==== Proof.lean ====
/-
  The router kernel against its reference, over the extended reals.

  The reference computes, for each of 32768 tokens, the logits `x @ W.T + b` over 64 experts and their softmax,
  subtracting each token's own maximum before exponentiating. The kernel packs two consecutive tokens into one
  row: the tokens reshaped to [16384, 8192] meet a block-diagonal [8192, 128] weight (the transposed weight in the
  upper-left and lower-right quadrants, zeros elsewhere), so that lanes [0, 64) of a row carry token 2 r's logits and
  lanes [64, 128) token 2 r + 1's; it subtracts the maximum over the WHOLE row, exponentiates, takes each half's sum by a
  product with the matrix of ones on the two diagonal blocks, divides, and reshapes back to [32768, 64].

  Where every input is a real (the precondition) both programs compute reals throughout, and the two agree because a
  softmax does not change when one real constant is subtracted from all its logits: `exp (l - c) / ∑ exp (l' - c)`
  is `exp l / ∑ exp l'` for every real `c`, `exp (-c)` being a nonzero factor of numerator and denominator. So neither
  maximum needs to be computed, only known to be a real, and both results are the unshifted softmax `G`. Finiteness
  is used twice: a zero of the block-diagonal weight annihilates the other token's feature only if that feature is
  finite, and the cancelling above is a law of the reals, not of the extended reals.

  The three frames are the generated ones (the reference's is its generated run with the result dropped); the ideal pass
  rewrote nothing, so the idealization conjunct is trivial.
-/
import proofs.«154467_g1906965480197_cont_8to1_1390_18_alg».proof.Defs
import proofs.«154467_g1906965480197_cont_8to1_1390_18_alg».proof.Proof.Gen.Kernel
import proofs.«154467_g1906965480197_cont_8to1_1390_18_alg».proof.Proof.Gen.Kernel.Skeleton
import proofs.«154467_g1906965480197_cont_8to1_1390_18_alg».proof.Proof.Gen.Kernel.Launch
import proofs.«154467_g1906965480197_cont_8to1_1390_18_alg».proof.Proof.Gen.Kernel.Points
import proofs.«154467_g1906965480197_cont_8to1_1390_18_alg».proof.Proof.Gen.Kernel.Frame
import proofs.«154467_g1906965480197_cont_8to1_1390_18_alg».proof.Proof.Gen.KernelIdeal
import proofs.«154467_g1906965480197_cont_8to1_1390_18_alg».proof.Proof.Gen.KernelIdeal.Skeleton
import proofs.«154467_g1906965480197_cont_8to1_1390_18_alg».proof.Proof.Gen.KernelIdeal.Launch
import proofs.«154467_g1906965480197_cont_8to1_1390_18_alg».proof.Proof.Gen.KernelIdeal.Points
import proofs.«154467_g1906965480197_cont_8to1_1390_18_alg».proof.Proof.Gen.KernelIdeal.Frame
import proofs.«154467_g1906965480197_cont_8to1_1390_18_alg».proof.Proof.Gen.ReferenceIdeal
import proofs.«154467_g1906965480197_cont_8to1_1390_18_alg».proof.Proof.Gen.ReferenceIdeal.Run
import proofs.«154467_g1906965480197_cont_8to1_1390_18_alg».proof.Proof.Gen.ReferenceIdeal.Read
import proofs.«154467_g1906965480197_cont_8to1_1390_18_alg».proof.Proof.Gen.Pre_finite_inputs
import proofs.«154467_g1906965480197_cont_8to1_1390_18_alg».proof.Proof.Softmax
import proofs.«154467_g1906965480197_cont_8to1_1390_18_alg».proof.Proof.Finite
import proofs.«154467_g1906965480197_cont_8to1_1390_18_alg».proof.Proof.Reference
import proofs.«154467_g1906965480197_cont_8to1_1390_18_alg».proof.Proof.KernelValue
import Idealize.ShloMosaic.Adequacy
import Idealize.ShloMosaic.Init

noncomputable section

namespace Cert.Proof

open Idealize.ShloMosaic Idealize.ShloMosaic.TcCoe Idealize.SL.Sem Cert.Router

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on real arguments, both programs end with the softmax of the logits, device by device. -/
theorem algebraic : Cert.algebraic_KernelIdeal_ReferenceIdeal := by
  intro m ρ m' ρ' hpre hagree
  have hfin := fun c : Dev Cert.KernelIdeal.nD => real_of_pre _ _ _ (hpre c)
  refine ⟨fun c => G (re2 (m ((c.tc : Thread Cert.KernelIdeal.nD Cert.KernelIdeal.τ).loc Cert.KernelIdeal.main_arg0)))
      (re2 (m ((c.tc : Thread Cert.KernelIdeal.nD Cert.KernelIdeal.τ).loc Cert.KernelIdeal.main_arg1)))
      (re1 (m ((c.tc : Thread Cert.KernelIdeal.nD Cert.KernelIdeal.τ).loc Cert.KernelIdeal.main_arg2))),
    kernel_run m ρ _ _ _ (fun c => coe_re2 _ (hfin c).1) (fun c => coe_re2 _ (hfin c).2.1) (fun c => coe_re1 _ (hfin c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  exact reference_eq_G _ _ _ _ _ _ (coe_re2 _ (hfin c).1) (coe_re2 _ (hfin c).2.1) (coe_re1 _ (hfin c).2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
